-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S1048576x256 : Shape := ⟨2, ![1048576, 256]⟩
abbrev S256 : Shape := ⟨1, ![256]⟩
abbrev S256x256 : Shape := ⟨2, ![256, 256]⟩
abbrev S_ : Shape := ⟨0, ![]⟩

class Facts : Prop where
  bcast_S_S1048576x256 : S_.BroadcastsInDim S1048576x256 (![] : Fin 0 → Fin S1048576x256.rank)
  reducesTo_S1048576x256_S_d0_1 : S1048576x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg0 : IVec S64x256 32) (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4096#32
  let main_v29 : IVec S64x256 32 := broadcastInDim S64x256 ![] bcast_S_S64x256 main_c_10
  let main_v30 : IVec S64x256 1 := cmpi .slt main_arg0 main_v29
  let main_c_11 : IVec S_ 1 := constantI S_ 1 1#1
  let main_v31 : IVec S_ 1 := (fun x v => Host.reduce IntOp.andi x v reducesTo_S64x256_S_d0_1 h_S_) main_v30 main_c_11
  let main_v32 : IVec S_ 1 := andi main_v28 main_v31
  main_v32

def fn {F : FTy → Type} [FloatOps F] (main_arg0 : IVec S64x256 32) (main_arg1 : FVec F S1048576x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S1048576x256 .f32 := Host.absf main_arg1
  let main_cst : FVec F S_ .f32 := constant S_ .f32 0x7F800000#32
  let main_v1 : FVec F S1048576x256 .f32 := broadcastInDim S1048576x256 ![] bcast_S_S1048576x256 main_cst
  let main_v2 : IVec S1048576x256 1 := cmpf .olt main_v0 main_v1
  let main_c : IVec S_ 1 := constantI S_ 1 1#1
  let main_v3 : IVec S_ 1 := (fun x v => Host.reduce IntOp.andi x v reducesTo_S1048576x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_v13 main_v16
-- ==== Kernel.lean ====
abbrev S64x256 : Shape := ⟨2, ![64, 256]⟩
abbrev S1048576x256 : Shape := ⟨2, ![1048576, 256]⟩
abbrev S256 : Shape := ⟨1, ![256]⟩
abbrev S256x256 : Shape := ⟨2, ![256, 256]⟩
abbrev S_ : Shape := ⟨0, ![]⟩
abbrev S256x64 : Shape := ⟨2, ![256, 64]⟩
abbrev S256x64x1 : Shape := ⟨3, ![256, 64, 1]⟩
abbrev S256x4096x256 : Shape := ⟨3, ![256, 4096, 256]⟩
abbrev S1x64x1 : Shape := ⟨3, ![1, 64, 1]⟩
abbrev S1x4096x256 : Shape := ⟨3, ![1, 4096, 256]⟩
abbrev S64x1 : Shape := ⟨2, ![64, 1]⟩
abbrev S64x4096 : Shape := ⟨2, ![64, 4096]⟩
abbrev S4096x256 : Shape := ⟨2, ![4096, 256]⟩
abbrev S1x256 : Shape := ⟨2, ![1, 256]⟩

abbrev nBuf : Space → Nat
  | .hbm => 18
  | .vmem => 11
  | .smem => 0
  | _ => 0

abbrev bufTy : (tb : Table) → Fin (tcTables nBuf tb) → BufTy
  | .hbm, ⟨0, _⟩ => ⟨S64x256, .i32⟩
  | .hbm, ⟨1, _⟩ => ⟨S1048576x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S64x256, .i32⟩
  | .hbm, ⟨9, _⟩ => ⟨S64x256, .i1⟩
  | .hbm, ⟨10, _⟩ => ⟨S_, .i32⟩
  | .hbm, ⟨11, _⟩ => ⟨S_, .i32⟩
  | .hbm, ⟨12, _⟩ => ⟨S64x256, .i32⟩
  | .hbm, ⟨13, _⟩ => ⟨S64x256, .i32⟩
  | .hbm, ⟨14, _⟩ => ⟨S256x64, .i32⟩
  | .hbm, ⟨15, _⟩ => ⟨S256x64x1, .i32⟩
  | .hbm, ⟨16, _⟩ => ⟨S256x4096x256, .f32⟩
  | .hbm, ⟨17, _⟩ => ⟨S64x256, .f32⟩
  | .local _ .vmem, ⟨0, _⟩ => ⟨S1x64x1, .i32⟩
  | .local _ .vmem, ⟨1, _⟩ => ⟨S1x64x1, .i32⟩
  | .local _ .vmem, ⟨2, _⟩ => ⟨S1x4096x256, .f32⟩
  | .local _ .vmem, ⟨3, _⟩ => ⟨S1x4096x256, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S64x256, .f32⟩
  | .local _ .vmem, ⟨10, _⟩ => ⟨S64x256, .f32⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v20 : BitVec 1 := Scalar.cmpi .eq arg0 c255_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S_S64x256 : S_.BroadcastsInDim S64x256 (![] : Fin 0 → Fin S64x256.rank)
  transposes_S64x256_S256x64_1_0 : S64x256.Transposes [1, 0] S256x64
  shapeCasts_S256x64_S256x64x1 : S256x64.ShapeCasts S256x64x1
  shapeCasts_S1048576x256_S256x4096x256 : S1048576x256.ShapeCasts S256x4096x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S64x4096_d1_w32 : S64x4096.Iotas .tc 32 [1]
  broadcasts_S64x1_S64x4096 : S64x1.Broadcasts S64x4096
  natLt_1_32 : 1 < 32
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S256x256_S256x256_0_0 : ∀ a, (![0, 0] : Fin 2 → Nat) a + S256x256.size a ≤ S256x256.size a
  h_S256x256 : 0 < S256x256.numel
  dot_S64x4096_S4096x256_S64x256_1_0_0_1_n_n_wf : DotDims.WF S64x4096 S4096x256 S64x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1.size a ≤ S256x64x1.size a
  hwx0_0 : ∀ i : grid0.Coords, EltTy.bits .i32 = 32 ∨ (Rect.block (s := S256x64x1) S1x64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S256x4096x256.size a
  hwx0_1 : ∀ i : grid0.Coords, EltTy.bits .f32 = 32 ∨ (Rect.block (s := S256x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)

variable [Facts₀]

def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v4) S1x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x256 : Shape := ⟨2, ![64, 256]⟩
abbrev S1048576x256 : Shape := ⟨2, ![1048576, 256]⟩
abbrev S256 : Shape := ⟨1, ![256]⟩
abbrev S256x256 : Shape := ⟨2, ![256, 256]⟩
abbrev S_ : Shape := ⟨0, ![]⟩
abbrev S256x4096x256 : Shape := ⟨3, ![256, 4096, 256]⟩
abbrev S1x256 : Shape := ⟨2, ![1, 256]⟩
abbrev S64x256x1 : Shape := ⟨3, ![64, 256, 1]⟩
abbrev S64x256x2 : Shape := ⟨3, ![64, 256, 2]⟩
abbrev S64x256x256 : Shape := ⟨3, ![64, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S1048576x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S64x256, .i32⟩
  | .hbm, ⟨9, _⟩ => ⟨S64x256, .i1⟩
  | .hbm, ⟨10, _⟩ => ⟨S_, .i32⟩
  | .hbm, ⟨11, _⟩ => ⟨S_, .i32⟩
  | .hbm, ⟨12, _⟩ => ⟨S64x256, .i32⟩
  | .hbm, ⟨13, _⟩ => ⟨S64x256, .i32⟩
  | .hbm, ⟨14, _⟩ => ⟨S256x4096x256, .f32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S1x256, .i32⟩
  | .hbm, ⟨19, _⟩ => ⟨S1x256, .i1⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S64x256, .i32⟩
  | .hbm, ⟨26, _⟩ => ⟨S64x256, .i1⟩
  | .hbm, ⟨27, _⟩ => ⟨S_, .i32⟩
  | .hbm, ⟨28, _⟩ => ⟨S64x256, .i32⟩
  | .hbm, ⟨29, _⟩ => ⟨S64x256, .i32⟩
  | .hbm, ⟨30, _⟩ => ⟨S64x256, .i32⟩
  | .hbm, ⟨31, _⟩ => ⟨S64x256, .i32⟩
  | .hbm, ⟨32, _⟩ => ⟨S64x256x1, .i32⟩
  | .hbm, ⟨33, _⟩ => ⟨S64x256x1, .i32⟩
  | .hbm, ⟨34, _⟩ => ⟨S64x256x2, .i32⟩
  | .hbm, ⟨35, _⟩ => ⟨S64x256x256, .f32⟩
  | .hbm, ⟨36, _⟩ => ⟨S_, .f32⟩
  | .hbm, ⟨37, _⟩ => ⟨S64x256, .f32⟩
  | .hbm, ⟨38, _⟩ => ⟨S1x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64x256, .f32⟩
  | .hbm, ⟨43, _⟩ => ⟨S64x256, .f32⟩
  | .hbm, ⟨44, _⟩ => ⟨S64x256, .f32⟩
  | .hbm, ⟨45, _⟩ => ⟨S1x256, .f32⟩
  | .hbm, ⟨46, _⟩ => ⟨S64x256, .f32⟩
  | .hbm, ⟨47, _⟩ => ⟨S64x256, .f32⟩
  | .hbm, ⟨48, _⟩ => ⟨S_, .f32⟩
  | .hbm, ⟨49, _⟩ => ⟨S64x256, .f32⟩
  | .hbm, ⟨50, _⟩ => ⟨S64x256, .f32⟩
  | .hbm, ⟨51, _⟩ => ⟨S64x256, .f32⟩
  | .hbm, ⟨52, _⟩ => ⟨S1x256, .f32⟩
  | .hbm, ⟨53, _⟩ => ⟨S64x256, .f32⟩
  | .hbm, ⟨54, _⟩ => ⟨S64x256, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  shapeCasts_S1048576x256_S256x4096x256 : S1048576x256.ShapeCasts S256x4096x256
  bcast_S256_S1x256_1 : S256.BroadcastsInDim S1x256 (![1] : Fin 1 → Fin S1x256.rank)
  bcast_S_S1x256 : S_.BroadcastsInDim S1x256 (![] : Fin 0 → Fin S1x256.rank)
  bcast_S1x256_S64x256_0_1 : S1x256.BroadcastsInDim S64x256 (![0, 1] : Fin 2 → Fin S64x256.rank)
  bcast_S64x256_S64x256x1_0_1 : S64x256.BroadcastsInDim S64x256x1 (![0, 1] : Fin 2 → Fin S64x256x1.rank)
  concatenates_S64x256x1_S64x256x1_S64x256x2_d2 : Shape.Concatenates [S64x256x1, S64x256x1] S64x256x2 2
  reducesTo_S64x256x256_S64x256_d1 : S64x256x256.ReducesTo [1] S64x256
  h_S_ : 0 < S_.numel
  gather_S256x4096x256_S64x256x2_S64x256x256_2_01_n_n_01_2_11256_wf : GatherDims.WF S256x4096x256 S64x256x2 S64x256x256 [2] [0, 1] [] [0, 1] [] 2 ![1, 1, 256]
  dot_S64x256_S256x256_S64x256_1_0_0_1_n_n_wf : DotDims.WF S64x256 S256x256 S64x256 [1] [0] [0] [1] [] []

variable [Facts₀]

def gather_S256x4096x256_S64x256x2_S64x256x256_2_01_n_n_01_2_11256 : GatherDims S256x4096x256 S64x256x2 S64x256x256 where
  offsetDims := [2]
  collapsedSliceDims := [0, 1]
  operandBatchingDims := []
  startIndicesBatchingDims := []
  startIndexMap := [0, 1]
  indexVectorDim := 2
  sliceSizes := ![1, 1, 256]
  wf := gather_S256x4096x256_S64x256x2_S64x256x256_2_01_n_n_01_2_11256_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.Pieces.lean ====
/-
  What each control case of the body leaves behind, as a value.

  The body keeps a running sum in a scratch buffer.  At the first grid point it stores zeros there and then adds the
  point's contribution; at every later point it adds the point's contribution to what the point before left; at
  the last point it also applies the dense layers to the finished sum and stores the result in the output block.
  Each store covers its whole buffer through the zero offset, so what a buffer holds afterwards is the last
  store's payload, and a load that follows a store of the same buffer reads that store's payload.
-/
import proofs.«414588_j76390288326988_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off1 : (![0] : Fin 1 → Nat) = fun _ => 0 := funext fun a => by fin_cases a <;> rfl

/-- A middle point: the scratch ends at the running sum `xs0` plus this point's contribution. -/
theorem scratch_mid (c : Dev nD) (i : grid0.Coords) (arg1 : Memref sig .tc .vmem S1x64x1 .i32) (harg1 : arg1.IsWhole) (arg2 : Memref sig .tc .vmem S1x4096x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S64x256 .f32) (harg8 : arg8.IsWhole) (arg9 : Memref sig .tc .vmem S64x256 .f32) (harg9 : arg9.IsWhole) (hc0 : ¬cond0_0 i) (hc1 : ¬cond0_1 i) (x0 : Vec F S1x64x1 .i32) (x1 : Vec F S1x4096x256 .f32) (x2 : Vec F S256 .f32) (x3 : Vec F S256x256 .f32) (x4 : Vec F S256 .f32) (x5 : Vec F S256x256 .f32) (x6 : Vec F S256 .f32) (xs0 : Vec F S64x256 .f32) :
    sout0_B_0 c i arg1 harg1 arg2 harg2 arg3 harg3 arg4 harg4 arg5 harg5 arg6 harg6 arg7 harg7 arg8 harg8 arg9 harg9 hc0 hc1 x0 x1 x2 x3 x4 x5 x6 xs0 = k0_pay2 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  sl_unfold_words
  rw [View.canon_unit_zero off2]
  simp only [View.readAt_eq_ld, harg1.read_unread, harg2.read_unread, harg9.read_unread,
    View.ld_unit_zero (S := S1x64x1) off3, View.ld_unit_zero (S := S1x4096x256) off3, View.ld_unit_zero (S := S64x256) off2]

/-- The last point: the scratch ends at the running sum plus this point's contribution, as at a middle point. -/
theorem scratch_last (c : Dev nD) (i : grid0.Coords) (arg1 : Memref sig .tc .vmem S1x64x1 .i32) (harg1 : arg1.IsWhole) (arg2 : Memref sig .tc .vmem S1x4096x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S64x256 .f32) (harg8 : arg8.IsWhole) (arg9 : Memref sig .tc .vmem S64x256 .f32) (harg9 : arg9.IsWhole) (hc0 : ¬cond0_0 i) (hc1 : cond0_1 i) (x0 : Vec F S1x64x1 .i32) (x1 : Vec F S1x4096x256 .f32) (x2 : Vec F S256 .f32) (x3 : Vec F S256x256 .f32) (x4 : Vec F S256 .f32) (x5 : Vec F S256x256 .f32) (x6 : Vec F S256 .f32) (xs0 : Vec F S64x256 .f32) :
    sout0_C_0 c i arg1 harg1 arg2 harg2 arg3 harg3 arg4 harg4 arg5 harg5 arg6 harg6 arg7 harg7 arg8 harg8 arg9 harg9 hc0 hc1 x0 x1 x2 x3 x4 x5 x6 xs0 = k0_pay2 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero off2]
  simp only [View.readAt_eq_ld, harg1.read_unread, harg2.read_unread, harg3.read_unread, harg4.read_unread, harg5.read_unread, harg6.read_unread, harg7.read_unread, harg9.read_unread,
    View.ld_unit_zero (S := S1x64x1) off3, View.ld_unit_zero (S := S1x4096x256) off3, View.ld_unit_zero (S := S64x256) off2,
    View.ld_unit_zero (S := S256) off1, View.ld_unit_zero (S := S256x256) off2]

/-- The last point: the output block ends at the dense layers of the finished sum. -/
theorem out_last (c : Dev nD) (i : grid0.Coords) (arg1 : Memref sig .tc .vmem S1x64x1 .i32) (harg1 : arg1.IsWhole) (arg2 : Memref sig .tc .vmem S1x4096x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S64x256 .f32) (harg8 : arg8.IsWhole) (arg9 : Memref sig .tc .vmem S64x256 .f32) (harg9 : arg9.IsWhole) (hc0 : ¬cond0_0 i) (hc1 : cond0_1 i) (x0 : Vec F S1x64x1 .i32) (x1 : Vec F S1x4096x256 .f32) (x2 : Vec F S256 .f32) (x3 : Vec F S256x256 .f32) (x4 : Vec F S256 .f32) (x5 : Vec F S256x256 .f32) (x6 : Vec F S256 .f32) (xs0 : Vec F S64x256 .f32) :
    out0_C_7 c i arg1 harg1 arg2 harg2 arg3 harg3 arg4 harg4 arg5 harg5 arg6 harg6 arg7 harg7 arg8 harg8 arg9 harg9 hc0 hc1 x0 x1 x2 x3 x4 x5 x6 xs0 = k0_pay3 (k0_pay2 x0 x1 xs0) x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero off2]
  simp only [View.readCov_unit_zero (S := S64x256) _ off2, View.readAt_eq_ld, harg1.read_unread, harg2.read_unread, harg3.read_unread, harg4.read_unread, harg5.read_unread, harg6.read_unread, harg7.read_unread, harg9.read_unread,
    View.ld_unit_zero (S := S1x64x1) off3, View.ld_unit_zero (S := S1x4096x256) off3, View.ld_unit_zero (S := S64x256) off2,
    View.ld_unit_zero (S := S256) off1, View.ld_unit_zero (S := S256x256) off2]

/-- The first point: the scratch ends at zeros plus this point's contribution. -/
theorem scratch_first (c : Dev nD) (i : grid0.Coords) (arg1 : Memref sig .tc .vmem S1x64x1 .i32) (harg1 : arg1.IsWhole) (arg2 : Memref sig .tc .vmem S1x4096x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S64x256 .f32) (harg8 : arg8.IsWhole) (arg9 : Memref sig .tc .vmem S64x256 .f32) (harg9 : arg9.IsWhole) (hc0 : cond0_0 i) (hc1 : ¬cond0_1 i) (x0 : Vec F S1x64x1 .i32) (x1 : Vec F S1x4096x256 .f32) (x2 : Vec F S256 .f32) (x3 : Vec F S256x256 .f32) (x4 : Vec F S256 .f32) (x5 : Vec F S256x256 .f32) (x6 : Vec F S256 .f32) :
    sout0_A_0 c i arg1 harg1 arg2 harg2 arg3 harg3 arg4 harg4 arg5 harg5 arg6 harg6 arg7 harg7 arg8 harg8 arg9 harg9 hc0 hc1 x0 x1 x2 x3 x4 x5 x6 = k0_pay2 x0 x1 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S64x256) off2]
  simp only [View.readCov_unit_zero (S := S64x256) _ off2, View.readAt_eq_ld, harg1.read_unread, harg2.read_unread, harg3.read_unread, harg4.read_unread, harg5.read_unread, harg6.read_unread, harg7.read_unread, harg9.read_unread,
    View.ld_unit_zero (S := S1x64x1) off3, View.ld_unit_zero (S := S1x4096x256) off3, View.ld_unit_zero (S := S64x256) off2,
    View.ld_unit_zero (S := S256) off1, View.ld_unit_zero (S := S256x256) off2]

end Cert.KernelIdeal.Pieces

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The function both programs compute, index by index, on the extended reals.

  Ids x[b, t] (after the padding ids have been sent to 4095) select, for each position t, row x[b, t] of the
  t-th [4096, 256] slab of the table; the selected rows are summed over t, a bias is added, and two dense layers
  with max(·, 0) between them and a last dense layer follow.  The kernel selects a row by a product with a one-hot
  vector: the one-hot sum law below says that such a product is the selected entry, which needs only 0 · a = 0 and
  1 · a = a, true of every extended real.
-/
import Idealize.ShloMosaic.PureOps.Ideal
import Idealize.ShloMosaic.PureOps.Ideal.Laws
import Idealize.ShloMosaic.Lib.ValueIdx
import Idealize.ShloMosaic.Lib.StableHlo.Predicate
import proofs.«414588_j76390288326988_2_alg».proof.Proof.LibRowDims

noncomputable section

open scoped BigOperators

namespace Cert.GateMlp

open Idealize.ShloMosaic Idealize.ShloMosaic.ValueIdx Idealize.ShloMosaic.RowDims
open Idealize.ShloMosaic.StableHlo.Predicate

/-! ## The row an id selects -/

/-- The slab row an id selects: the id read signed and clamped into [0, 4095]. -/
def row (v : BitVec 32) : Fin 4096 := clampRow 4096 (by decide) v

theorem row_val (v : BitVec 32) : (row v).val = min v.toInt.toNat 4095 := rfl

/-- An id in range: read signed it lies in [0, 4096). -/
def InRange (v : BitVec 32) : Prop := 0 ≤ v.toInt ∧ v.toInt < 4096

/-- An in-range id is a small unsigned word, and its signed reading is that number. -/
theorem toNat_of_inRange {v : BitVec 32} (h : InRange v) : v.toNat < 4096 ∧ v.toInt = v.toNat := by
  obtain ⟨h0, h1⟩ := h
  have hlt := v.isLt
  rw [BitVec.toInt_eq_toNat_cond] at h0 h1
  split at h0 <;> rename_i hc
  · rw [if_pos hc] at h1
    refine ⟨by omega, ?_⟩
    rw [BitVec.toInt_eq_toNat_cond, if_pos hc]
  · rw [if_neg hc] at h1
    exfalso; omega

/-- The row of an in-range id is the id itself. -/
theorem row_val_of_inRange {v : BitVec 32} (h : InRange v) : (row v).val = v.toNat := by
  obtain ⟨hlt, he⟩ := toNat_of_inRange h
  rw [row_val, he]
  simp only [Int.toNat_natCast]
  omega

/-- Position k of the one-hot axis carries the id's word exactly when k is the id's row. -/
theorem ofNat_eq_iff {v : BitVec 32} (h : InRange v) (k : Fin 4096) : BitVec.ofNat 32 k.val = v ↔ k = row v := by
  have hr := row_val_of_inRange h
  have hk := k.isLt
  constructor
  · intro e
    apply Fin.ext
    rw [hr, ← e, BitVec.toNat_ofNat]
    omega
  · intro e
    apply BitVec.eq_of_toNat_eq
    rw [BitVec.toNat_ofNat, e, hr]
    have := (toNat_of_inRange h).1
    omega

/-- The ids as both programs use them: a negative id (padding) becomes 4095, any other id stays. -/
def remap (g : IVec ⟨2, ![64, 256]⟩ 32) : IVec ⟨2, ![64, 256]⟩ 32 := fun i => if (g i).toInt < 0 then 4095#32 else g i

/-- Ids below 4096 remap into range. -/
theorem remap_inRange (g : IVec ⟨2, ![64, 256]⟩ 32) (h : ∀ i, (g i).toInt < 4096) (i : (⟨2, ![64, 256]⟩ : Shape).Idx) :
    InRange (remap g i) := by
  unfold remap InRange
  split
  · decide
  · exact ⟨by omega, h i⟩

/-! ## One-hot weights -/

/-- A widened comparison bit read as a number is 1 or 0. -/
theorem weight_bit (b : BitVec 1) : (((b.setWidth 32).toInt : ℝ) : EReal) = if b = 1#1 then 1 else 0 := by
  rcases BitVec.eq_zero_or_eq_one b with rfl | rfl
  · rw [if_neg (by decide)]
    show (((0 : ℤ) : ℝ) : EReal) = 0
    simp
  · rw [if_pos rfl]
    show (((1 : ℤ) : ℝ) : EReal) = 1
    simp

/-- THE ONE-HOT SUM LAW.  Weights that are 1 at the position carrying the id's word and 0 elsewhere pick the term
    at the id's row. -/
theorem onehot_sum {v : BitVec 32} (h : InRange v) (w : Fin 4096 → EReal) :
    ∑ k : Fin 4096, ((((IntOp.cmpi .eq (BitVec.ofNat 32 k.val) v).setWidth 32).toInt : ℝ) : EReal) * w k = w (row v) := by
  have e : ∀ k : Fin 4096,
      ((((IntOp.cmpi .eq (BitVec.ofNat 32 k.val) v).setWidth 32).toInt : ℝ) : EReal) * w k = if k = row v then w k else 0 := by
    intro k
    rw [weight_bit]
    by_cases hk : k = row v
    · rw [if_pos (cmpi_eq_iff.mpr ((ofNat_eq_iff h k).mpr hk)), if_pos hk, one_mul]
    · rw [if_neg (fun hc => hk ((ofNat_eq_iff h k).mp (cmpi_eq_iff.mp hc))), if_neg hk, zero_mul]
  rw [Finset.sum_congr rfl fun k _ => e k, Finset.sum_ite_eq' Finset.univ (row v) w, if_pos (Finset.mem_univ _)]

/-! ## The function -/

/-- The summed selected rows: entry (b, h) is the sum over positions t of the table at (t, row x[b, t], h). -/
def emb (x : IVec ⟨2, ![64, 256]⟩ 32) (Wr : FVec Ideal ⟨3, ![256, 4096, 256]⟩ .f32) : FVec Ideal ⟨2, ![64, 256]⟩ .f32 :=
  fun i => ∑ t : Fin 256, Wr (ix3 t (row (x (ix2 (i 0) t))) (i 1))

/-- One dense layer: a · W + b, the bias along the columns. -/
def dense (a : FVec Ideal ⟨2, ![64, 256]⟩ .f32) (W : FVec Ideal ⟨2, ![256, 256]⟩ .f32) (b : FVec Ideal ⟨1, ![256]⟩ .f32) :
    FVec Ideal ⟨2, ![64, 256]⟩ .f32 :=
  fun i => (∑ k : Fin 256, a (ix2 (i 0) k) * W (ix2 k (i 1))) + b (ix1 (i 1))

/-- max(·, 0), entry by entry. -/
def relu (a : FVec Ideal ⟨2, ![64, 256]⟩ .f32) : FVec Ideal ⟨2, ![64, 256]⟩ .f32 := fun i => max (a i) 0

/-- What follows the summed rows s: the first bias and max, then dense, max, dense. -/
def tail (s : FVec Ideal ⟨2, ![64, 256]⟩ .f32) (b1 : FVec Ideal ⟨1, ![256]⟩ .f32)
    (W2 : FVec Ideal ⟨2, ![256, 256]⟩ .f32) (b2 : FVec Ideal ⟨1, ![256]⟩ .f32)
    (W3 : FVec Ideal ⟨2, ![256, 256]⟩ .f32) (b3 : FVec Ideal ⟨1, ![256]⟩ .f32) : FVec Ideal ⟨2, ![64, 256]⟩ .f32 :=
  dense (relu (dense (relu (fun i => s i + b1 (ix1 (i 1)))) W2 b2)) W3 b3

/-- THE RESULT both programs compute from the ids g, the table seen as 256 slabs Wr, and the dense layers'
    weights and biases. -/
def result (g : IVec ⟨2, ![64, 256]⟩ 32) (Wr : FVec Ideal ⟨3, ![256, 4096, 256]⟩ .f32) (b1 : FVec Ideal ⟨1, ![256]⟩ .f32)
    (W2 : FVec Ideal ⟨2, ![256, 256]⟩ .f32) (b2 : FVec Ideal ⟨1, ![256]⟩ .f32)
    (W3 : FVec Ideal ⟨2, ![256, 256]⟩ .f32) (b3 : FVec Ideal ⟨1, ![256]⟩ .f32) : FVec Ideal ⟨2, ![64, 256]⟩ .f32 :=
  tail (emb (remap g) Wr) b1 W2 b2 W3 b3

end Cert.GateMlp

end
-- ==== Proof.Pay.lean ====
/-
  The body's arithmetic on the extended reals, entry by entry: what one grid point adds to the running sum, and what
  the last point makes of the finished sum.
-/
import proofs.«414588_j76390288326988_2_alg».proof.Proof.Gen.KernelIdeal.Skeleton
import proofs.«414588_j76390288326988_2_alg».proof.Proof.Spec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Idealize.ShloMosaic.RowDims
open Cert.GateMlp

/-- The two printed contractions are the plain [M, K] × [K, N] ones. -/
theorem dot_onehot : dot_S64x4096_S4096x256_S64x256_1_0_0_1_n_n = DotDims.plain 64 4096 256 := rfl
theorem dot_dense : dot_S64x256_S256x256_S64x256_1_0_0_1_n_n = DotDims.plain 64 256 256 := rfl

/-- The reset's payload is zero everywhere. -/
theorem zeros_apply (i : S64x256.Idx) : k0_pay1 (F := Ideal) i = 0 := by
  unfold k0_pay1
  show Ideal.ofBits .f32 0x00000000#32 = 0
  exact Ideal.ofBits_zero_f32

/-- ONE POINT'S CONTRIBUTION.  With the ids block x0 ([1, 64, 1]: one id per batch row), the table slab x1
    ([1, 4096, 256]) and the running sum acc, the update's payload at (p, q) is acc (p, q) plus the slab's entry at
    (row of id p, q): the one-hot row of p, multiplied into the slab, picks that row (the one-hot sum law). -/
theorem contribution (x0 : Vec Ideal S1x64x1 .i32) (x1 : Vec Ideal S1x4096x256 .f32) (acc : Vec Ideal S64x256 .f32)
    (p : Fin 64) (q : Fin 256) (h : InRange (x0 (ix3 0 p 0))) :
    k0_pay2 (F := Ideal) x0 x1 acc (ix2 p q) = acc (ix2 p q) + x1 (ix3 0 (row (x0 (ix3 0 p 0))) q) := by
  unfold k0_pay2
  dsimp only
  rw [shapeCast_self]
  refine congrArg (acc (ix2 p q) + ·) ?_
  show FloatOps.matmul dot_S64x4096_S4096x256_S64x256_1_0_0_1_n_n none _ _ (constant S64x256 .f32 0x00000000#32) (ix2 p q) = _
  rw [dot_onehot]
  refine (matmul_plain_zero_apply none _ _ p q).trans ?_
  refine Eq.trans (Finset.sum_congr rfl fun k _ => ?_) (onehot_sum h fun k => x1 (ix3 0 k q))
  refine congrArg₂ (· * ·) ?_ ?_
  · -- the one-hot weight at (p, k): position k's word against the id of row p
    show FloatOps.sitofp (F := Ideal) .f32 ((IntOp.cmpi .eq (iota .tc S64x4096 32 [1] iota_S64x4096_d1_w32 (ix2 p k))
      (broadcastTo S64x4096 (shapeCast S64x1 x0 shapeCasts_S1x64x1_S64x1) broadcasts_S64x1_S64x4096 (ix2 p k))).setWidth 32) = _
    rw [iota_single_apply,
      broadcastTo_apply _ broadcasts_S64x1_S64x4096 (ix2 p k) (ix2 p (0 : Fin 1)) (fun a => by match a with | ⟨0, _⟩ => rfl | ⟨1, _⟩ => rfl),
      shapeCast_apply x0 shapeCasts_S1x64x1_S64x1 (ix2 p (0 : Fin 1)) (ix3 (0 : Fin 1) p (0 : Fin 1))
        (by rw [Shape.rowMajor_val_three, Shape.rowMajor_val_two]; show ((0 : ℕ) * 64 + p.val) * 1 + 0 = p.val * 1 + 0; omega)]
    rfl
  · -- the slab's entry (k, q)
    exact shapeCast_apply x1 shapeCasts_S1x4096x256_S4096x256 (ix2 k q) (ix3 (0 : Fin 1) k q)
      (by rw [Shape.rowMajor_val_three, Shape.rowMajor_val_two]; show ((0 : ℕ) * 4096 + k.val) * 256 + q.val = k.val * 256 + q.val; omega)

/-- A bias vector broadcast along the rows, read at (p, q): its entry q. -/
theorem bias_apply (b : Vec Ideal S256 .f32) (p : Fin 64) (q : Fin 256) :
    broadcastTo S64x256 (shapeCast S1x256 b shapeCasts_S256_S1x256) broadcasts_S1x256_S64x256 (ix2 p q) = b (ix1 q) := by
  rw [broadcastTo_apply _ broadcasts_S1x256_S64x256 (ix2 p q) (ix2 (0 : Fin 1) q) (fun a => by match a with | ⟨0, _⟩ => rfl | ⟨1, _⟩ => rfl),
    shapeCast_apply b shapeCasts_S256_S1x256 (ix2 (0 : Fin 1) q) (ix1 q)
      (by rw [Shape.rowMajor_val_one, Shape.rowMajor_val_two]; show q.val = (0 : ℕ) * 256 + q.val; omega)]

/-- The maximum against the zero splat is max(·, 0). -/
theorem relu_eq (a : FVec Ideal S64x256 .f32) :
    maximumf a (broadcast S64x256 (Scalar.ofBits .f32 0x00000000#32)) = relu a := by
  funext i
  show max (a i) (Ideal.ofBits .f32 0x00000000#32) = max (a i) 0
  rw [Ideal.ofBits_zero_f32]

/-- A product into the zero accumulator plus the broadcast bias is one dense layer (the narrowing of the operands
    to bf16 is the identity on the extended reals). -/
theorem dense_eq (a : FVec Ideal S64x256 .f32) (W : Vec Ideal S256x256 .f32) (b : Vec Ideal S256 .f32) :
    addf (matmul dot_S64x256_S256x256_S64x256_1_0_0_1_n_n none (truncf .bf16 a bitsLt_bf16_f32) (truncf .bf16 W bitsLt_bf16_f32)
        (constant S64x256 .f32 0x00000000#32))
      (broadcastTo S64x256 (shapeCast S1x256 b shapeCasts_S256_S1x256) broadcasts_S1x256_S64x256) = dense a W b := by
  funext i
  obtain ⟨p, q, rfl⟩ : ∃ (p : Fin 64) (q : Fin 256), i = ix2 p q := ⟨i 0, i 1, eq_ix2 i⟩
  show FloatOps.matmul dot_S64x256_S256x256_S64x256_1_0_0_1_n_n none (truncf .bf16 a bitsLt_bf16_f32) (truncf .bf16 W bitsLt_bf16_f32)
      (constant S64x256 .f32 0x00000000#32) (ix2 p q)
    + broadcastTo S64x256 (shapeCast S1x256 b shapeCasts_S256_S1x256) broadcasts_S1x256_S64x256 (ix2 p q)
    = (∑ k : Fin 256, a (ix2 p k) * W (ix2 k q)) + b (ix1 q)
  rw [dot_dense, bias_apply]
  exact congrArg (· + b (ix1 q)) (matmul_plain_zero_apply none _ _ p q)

/-- THE LAST POINT'S OUTPUT PAYLOAD is the specification's tail of the finished sum. -/
theorem tail_eq (s : Vec Ideal S64x256 .f32) (b1 : Vec Ideal S256 .f32) (W2 : Vec Ideal S256x256 .f32) (b2 : Vec Ideal S256 .f32)
    (W3 : Vec Ideal S256x256 .f32) (b3 : Vec Ideal S256 .f32) :
    k0_pay3 (F := Ideal) s b1 W2 b2 W3 b3 = tail s b1 W2 b2 W3 b3 := by
  unfold k0_pay3
  dsimp only
  rw [relu_eq, dense_eq, relu_eq, dense_eq]
  unfold tail
  refine congrArg (fun z => dense (relu (dense (relu z) W2 b2)) W3 b3) ?_
  funext i
  obtain ⟨p, q, rfl⟩ : ∃ (p : Fin 64) (q : Fin 256), i = ix2 p q := ⟨i 0, i 1, eq_ix2 i⟩
  show s (ix2 p q) + broadcastTo S64x256 (shapeCast S1x256 b1 shapeCasts_S256_S1x256) broadcasts_S1x256_S64x256 (ix2 p q) = s (ix2 p q) + b1 (ix1 q)
  rw [bias_apply]

end Cert.KernelIdeal.Pay

end
-- ==== Proof.KValue.lean ====
/-
  The kernel's value.  The body adds, at grid point t, slab t's rows selected by the ids of position t to a running
  sum kept in a scratch buffer; after the last point the running sum is the specification's summed rows, and the
  last point's one output store, written back once, is the specification's result.
-/
import proofs.«414588_j76390288326988_2_alg».proof.Proof.Gen.KernelIdeal.Value
import proofs.«414588_j76390288326988_2_alg».proof.Proof.Pieces
import proofs.«414588_j76390288326988_2_alg».proof.Proof.Pay
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen Cert.KernelIdeal.Value Cert.KernelIdeal.Pieces Cert.KernelIdeal.Pay
open Idealize.ShloMosaic Idealize.ShloMosaic.TcCoe Idealize.ShloMosaic.Tactic Idealize.SL.Sem Idealize.ShloMosaic.StableHlo
open Idealize.ShloMosaic.ValueIdx Idealize.ShloMosaic.RowDims
open Idealize.ShloMosaic.Pipeline (Dat)
open Cert.GateMlp

variable (m : (ℓ : Loc nD τ sig) → Buf (Elt Ideal) ℓ) (ρ : Dev nD → PrngReg)

/-! ## What the region finds: the ids, remapped and laid out position-major, and the table as 256 slabs -/

/-- The host operations before the region leave, in the first window's array, the remapped ids transposed to
    [256, 64] and given a trailing unit axis. -/
theorem ids_entry (c : Dev nD) : (V m c main_v4 : S256x64x1.Idx → BitVec 32)
    = shapeCast S256x64x1 (transpose S256x64 [1, 0]
        (select (cmpi .slt (m ((c : Thread nD τ).loc main_arg0)) (broadcastInDim S64x256 ![] bcast_S_S64x256 (constantI S_ 32 0#32)))
          (broadcastInDim S64x256 ![] bcast_S_S64x256 (id (constantI S_ 32 4095#32))) (m ((c : Thread nD τ).loc main_arg0)))
        transposes_S64x256_S256x64_1_0) shapeCasts_S256x64_S256x64x1 := by
  dsimp only [V]
  simp only [hostOps0, hostOps0_1, hostOps0_2, List.flatten_cons, List.flatten_nil, List.append_nil, List.cons_append, List.nil_append]
  after_results
  rfl

/-- and, in the second window's array, the table reshaped to [256, 4096, 256]. -/
theorem slabs_entry (c : Dev nD) : (V m c main_v5 : S256x4096x256.Idx → EReal)
    = shapeCast S256x4096x256 (m ((c : Thread nD τ).loc main_arg1)) shapeCasts_S1048576x256_S256x4096x256 := by
  dsimp only [V]
  simp only [hostOps0, hostOps0_1, hostOps0_2, List.flatten_cons, List.flatten_nil, List.append_nil, List.cons_append, List.nil_append]
  after_results
  rfl

/-- Read at (t, p, 0), the ids the region finds are the remapped id of batch row p at position t. -/
theorem ids_entry_apply (c : Dev nD) (t : Fin 256) (p : Fin 64) :
    (V m c main_v4 : S256x64x1.Idx → BitVec 32) (ix3 t p (0 : Fin 1)) = remap (m ((c : Thread nD τ).loc main_arg0)) (ix2 p t) := by
  rw [ids_entry,
    shapeCast_apply _ shapeCasts_S256x64_S256x64x1 (ix3 t p (0 : Fin 1)) (ix2 t p)
      (by rw [Shape.rowMajor_val_three, Shape.rowMajor_val_two]; show t.val * 64 + p.val = (t.val * 64 + p.val) * 1 + 0; omega),
    transpose_apply [1, 0] _ transposes_S64x256_S256x64_1_0 (ix2 t p) (ix2 p t)
      (fun b => by match b with | ⟨0, _⟩ => rfl | ⟨1, _⟩ => rfl)]
  show Scalar.select (IntOp.cmpi .slt (m ((c : Thread nD τ).loc main_arg0) (ix2 p t))
      (broadcastInDim S64x256 ![] bcast_S_S64x256 (constantI S_ 32 0#32) (ix2 p t)))
    (broadcastInDim S64x256 ![] bcast_S_S64x256 (id (constantI S_ 32 4095#32)) (ix2 p t)) (m ((c : Thread nD τ).loc main_arg0) (ix2 p t)) = _
  rw [StableHlo.Predicate.bcast_scalar bcast_S_S64x256 (by decide), StableHlo.Predicate.bcast_scalar bcast_S_S64x256 (by decide)]
  show Scalar.select (IntOp.cmpi .slt (m ((c : Thread nD τ).loc main_arg0) (ix2 p t)) 0#32) 4095#32 (m ((c : Thread nD τ).loc main_arg0) (ix2 p t))
    = if (m ((c : Thread nD τ).loc main_arg0) (ix2 p t)).toInt < 0 then 4095#32 else m ((c : Thread nD τ).loc main_arg0) (ix2 p t)
  have hs : ∀ a b : BitVec 32, IntOp.cmpi .slt a b = 1#1 ↔ a.toInt < b.toInt := fun a b => by
    simp only [IntOp.cmpi, StableHlo.Predicate.ofBool_eq_one_iff, BitVec.slt, decide_eq_true_eq]
  have h0 : (0#32 : BitVec 32).toInt = 0 := by decide
  by_cases h : (m ((c : Thread nD τ).loc main_arg0) (ix2 p t)).toInt < 0
  · rw [if_pos h, show IntOp.cmpi .slt (m ((c : Thread nD τ).loc main_arg0) (ix2 p t)) 0#32 = 1#1 from (hs _ _).mpr (by rw [h0]; exact h)]
    exact select_one _ _
  · have hne : ¬IntOp.cmpi .slt (m ((c : Thread nD τ).loc main_arg0) (ix2 p t)) 0#32 = 1#1 :=
      fun hc => h (by have := (hs _ _).mp hc; rwa [h0] at this)
    rw [if_neg h, eq_zero_of_ne_one hne]
    exact select_zero _ _

/-! ## The windows' blocks -/

/-- A grid point as a position 0 … 255. -/
abbrev pos (t : Fin cfg0.N) : Fin 256 := ⟨t.val, lt_of_lt_of_eq t.isLt N_0⟩

/-- The first two windows step along their arrays' leading axis with the grid point; -/
theorem index_ids : ∀ t : Fin cfg0.N, win0_0.index t 0 = t.val ∧ win0_0.index t 1 = 0 ∧ win0_0.index t 2 = 0 :=
  (by decide +kernel : ∀ t : Fin grid0.N, _)
theorem index_slab : ∀ t : Fin cfg0.N, win0_1.index t 0 = t.val ∧ win0_1.index t 1 = 0 ∧ win0_1.index t 2 = 0 :=
  (by decide +kernel : ∀ t : Fin grid0.N, _)
/-- the others stay on their arrays' one block. -/
theorem index_b1 : ∀ t : Fin cfg0.N, win0_2.index t 0 = 0 := (by decide +kernel : ∀ t : Fin grid0.N, _)
theorem index_W2 : ∀ t : Fin cfg0.N, win0_3.index t 0 = 0 ∧ win0_3.index t 1 = 0 := (by decide +kernel : ∀ t : Fin grid0.N, _)
theorem index_b2 : ∀ t : Fin cfg0.N, win0_4.index t 0 = 0 := (by decide +kernel : ∀ t : Fin grid0.N, _)
theorem index_W3 : ∀ t : Fin cfg0.N, win0_5.index t 0 = 0 ∧ win0_5.index t 1 = 0 := (by decide +kernel : ∀ t : Fin grid0.N, _)
theorem index_b3 : ∀ t : Fin cfg0.N, win0_6.index t 0 = 0 := (by decide +kernel : ∀ t : Fin grid0.N, _)
theorem index_out : ∀ t : Fin cfg0.N, win0_7.index t 0 = 0 ∧ win0_7.index t 1 = 0 := (by decide +kernel : ∀ t : Fin grid0.N, _)

/-- The ids block and the table slab of a point, at their literal types. -/
abbrev idsBlk (c : Dev nD) (t : Fin cfg0.N) : Vec Ideal S1x64x1 .i32 := iblk m c 0 t
abbrev slabBlk (c : Dev nD) (t : Fin cfg0.N) : Vec Ideal S1x4096x256 .f32 := iblk m c 1 t

/-- Point t's ids block holds, for batch row p, the remapped id of (p, t). -/
theorem idsBlk_apply (c : Dev nD) (t : Fin cfg0.N) (p : Fin 64) :
    idsBlk m c t (ix3 (0 : Fin 1) p (0 : Fin 1)) = remap (m ((c : Thread nD τ).loc main_arg0)) (ix2 p (pos t)) := by
  refine Eq.trans ?_ (ids_entry_apply m c (pos t) p)
  show V m c main_v4 (((cfg0.win 0).blk t).view.emb (ix3 (0 : Fin 1) p (0 : Fin 1))) = V m c main_v4 (ix3 (pos t) p (0 : Fin 1))
  refine congrArg (V m c main_v4) (funext fun a => Fin.ext ?_)
  match a with
  | ⟨0, _⟩ => show win0_0.index t 0 * 1 + 1 * 0 = t.val; rw [(index_ids t).1]; omega
  | ⟨1, _⟩ => show win0_0.index t 1 * 64 + 1 * p.val = p.val; rw [(index_ids t).2.1]; omega
  | ⟨2, _⟩ => show win0_0.index t 2 * 1 + 1 * 0 = 0; rw [(index_ids t).2.2]

/-- Point t's table slab is slab t of the table. -/
theorem slabBlk_apply (c : Dev nD) (t : Fin cfg0.N) (v : Fin 4096) (q : Fin 256) :
    slabBlk m c t (ix3 (0 : Fin 1) v q)
      = shapeCast S256x4096x256 (m ((c : Thread nD τ).loc main_arg1)) shapeCasts_S1048576x256_S256x4096x256 (ix3 (pos t) v q) := by
  refine Eq.trans ?_ (congrFun (slabs_entry m c) (ix3 (pos t) v q))
  show V m c main_v5 (((cfg0.win 1).blk t).view.emb (ix3 (0 : Fin 1) v q)) = V m c main_v5 (ix3 (pos t) v q)
  refine congrArg (V m c main_v5) (funext fun a => Fin.ext ?_)
  match a with
  | ⟨0, _⟩ => show win0_1.index t 0 * 1 + 1 * 0 = t.val; rw [(index_slab t).1]; omega
  | ⟨1, _⟩ => show win0_1.index t 1 * 4096 + 1 * v.val = v.val; rw [(index_slab t).2.1]; omega
  | ⟨2, _⟩ => show win0_1.index t 2 * 256 + 1 * q.val = q.val; rw [(index_slab t).2.2]; omega

/-! ## The running sum -/

/-- The ids and the table's slabs as the kernel's arguments give them. -/
abbrev ids (c : Dev nD) : IVec S64x256 32 := m ((c : Thread nD τ).loc main_arg0)
abbrev slabs (c : Dev nD) : FVec Ideal S256x4096x256 .f32 :=
  shapeCast S256x4096x256 (m ((c : Thread nD τ).loc main_arg1)) shapeCasts_S1048576x256_S256x4096x256

/-- The ids are in range: every id is below 4096 (what the precondition says of them). -/
def IdsOk (c : Dev nD) : Prop := ∀ i : S64x256.Idx, (ids m c i).toInt < 4096

/-- Position n's addend to entry i of the running sum: slab n at the row of the remapped id of (row of i, n). -/
def addend (c : Dev nD) (n : ℕ) (i : S64x256.Idx) : EReal :=
  if h : n < 256 then slabs m c (ix3 (⟨n, h⟩ : Fin 256) (row (remap (ids m c) (ix2 (i 0) (⟨n, h⟩ : Fin 256)))) (i 1)) else 0

/-- One point's update adds that point's addend to the running sum. -/
theorem update_apply (c : Dev nD) (hok : IdsOk m c) (t : Fin cfg0.N) (acc : Vec Ideal S64x256 .f32) (i : S64x256.Idx) :
    k0_pay2 (F := Ideal) (idsBlk m c t) (slabBlk m c t) acc i = acc i + addend m c t.val i := by
  obtain ⟨p, q, rfl⟩ : ∃ (p : Fin 64) (q : Fin 256), i = ix2 p q := ⟨i 0, i 1, eq_ix2 i⟩
  have hr : InRange (idsBlk m c t (ix3 (0 : Fin 1) p (0 : Fin 1))) := by
    rw [idsBlk_apply]; exact remap_inRange (ids m c) hok _
  refine (contribution (idsBlk m c t) (slabBlk m c t) acc p q hr).trans ?_
  refine congrArg (acc (ix2 p q) + ·) ?_
  rw [slabBlk_apply, idsBlk_apply]
  unfold addend
  rw [dif_pos (lt_of_lt_of_eq t.isLt N_0)]

/-- What the scratch holds after point n: zero plus the addends of positions 0 … n. -/
theorem scratch_after (c : Dev nD) (hok : IdsOk m c) (n : ℕ) (hn : n < cfg0.N) (i : S64x256.Idx) :
    (outsAt0 m c n hn).2 i = 0 + ∑ s ∈ Finset.range (n + 1), addend m c (0 + s) i := by
  have hN : cfg0.N = 256 := N_0
  rw [soutsAt0_0_sweep m c n hn]
  refine Pipeline.accAt_add_apply (β := EReal) (fun n h => scAt0_0 m c n h (VS0_0.read (Elt Ideal) VS0_0.junk)) (scAt0_0 m c)
    (fun _ => (0 : EReal)) (addend m c) 0 255 ?first ?step n (by omega) (by omega) i
  case first =>
    intro h i
    have h0 : (0 : ℕ) % 256 = 0 := rfl
    have h1 : ¬(0 : ℕ) % 256 = 255 := by decide
    unfold scAt0_0
    rw [dif_pos h0, dif_neg h1]
    refine (congrFun (scratch_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) ((hcond0_0 (⟨0, h⟩ : Fin cfg0.N)).mpr h0) (fun hc => h1 ((hcond0_1 (⟨0, h⟩ : Fin cfg0.N)).mp hc)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))) i).trans ?_
    refine (update_apply m c hok (⟨0, h⟩ : Fin cfg0.N) (k0_pay1 (F := Ideal)) i).trans ?_
    rw [zeros_apply]
  case step =>
    intro n h acc i hpos hle
    have h0 : ¬n % 256 = 0 := by omega
    unfold scAt0_0
    rw [dif_neg h0]
    by_cases h1 : n % 256 = 255
    · rw [dif_pos h1]
      refine (congrFun (scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) (fun hc => h0 ((hcond0_0 (⟨n, h⟩ : Fin cfg0.N)).mp hc)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) acc) i).trans ?_
      exact update_apply m c hok (⟨n, h⟩ : Fin cfg0.N) acc i
    · rw [dif_neg h1]
      refine (congrFun (scratch_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) (fun hc => h0 ((hcond0_0 (⟨n, h⟩ : Fin cfg0.N)).mp hc)) (fun hc => h1 ((hcond0_1 (⟨n, h⟩ : Fin cfg0.N)).mp hc)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) acc) i).trans ?_
      exact update_apply m c hok (⟨n, h⟩ : Fin cfg0.N) acc i

/-- The addends of all 256 positions sum to the specification's summed rows. -/
theorem addends_sum (c : Dev nD) (i : S64x256.Idx) :
    0 + ∑ s ∈ Finset.range (255 + 1), addend m c (0 + s) i = emb (remap (ids m c)) (slabs m c) i := by
  rw [zero_add, Finset.sum_range]
  refine Finset.sum_congr rfl fun t _ => ?_
  unfold addend
  rw [dif_pos (by have := t.isLt; omega)]
  have e : (⟨0 + t.val, by have := t.isLt; omega⟩ : Fin 256) = t := Fin.ext (Nat.zero_add _)
  rw [e]

/-- After the last point the scratch holds the specification's summed rows. -/
theorem scratch_finished (c : Dev nD) (hok : IdsOk m c) (t : Fin cfg0.N) (h1 : t.val % 256 = 255) :
    (outsAt0 m c t.val t.isLt).2 = emb (remap (ids m c)) (slabs m c) := by
  funext i
  have ht : t.val = 255 := by have := lt_of_lt_of_eq t.isLt N_0; omega
  rw [scratch_after m c hok t.val t.isLt i, ht]
  exact addends_sum m c i

/-! ## The resident blocks: each is its whole array -/

theorem b1_block (c : Dev nD) (t : Fin cfg0.N) : (iblk m c 2 t : Vec Ideal S256 .f32) = m ((c : Thread nD τ).loc main_arg2) := by
  funext y
  show V m c main_arg2 (((cfg0.win 2).blk t).view.emb y) = _
  rw [V_main_arg2]
  refine congrArg (m _) (funext fun a => Fin.ext ?_)
  match a with
  | ⟨0, _⟩ => show win0_2.index t 0 * 256 + 1 * (y 0).val = (y 0).val; rw [index_b1 t]; omega
theorem W2_block (c : Dev nD) (t : Fin cfg0.N) : (iblk m c 3 t : Vec Ideal S256x256 .f32) = m ((c : Thread nD τ).loc main_arg3) := by
  funext y
  show V m c main_arg3 (((cfg0.win 3).blk t).view.emb y) = _
  rw [V_main_arg3]
  refine congrArg (m _) (funext fun a => Fin.ext ?_)
  match a with
  | ⟨0, _⟩ => show win0_3.index t 0 * 256 + 1 * (y 0).val = (y 0).val; rw [(index_W2 t).1]; omega
  | ⟨1, _⟩ => show win0_3.index t 1 * 256 + 1 * (y 1).val = (y 1).val; rw [(index_W2 t).2]; omega
theorem b2_block (c : Dev nD) (t : Fin cfg0.N) : (iblk m c 4 t : Vec Ideal S256 .f32) = m ((c : Thread nD τ).loc main_arg4) := by
  funext y
  show V m c main_arg4 (((cfg0.win 4).blk t).view.emb y) = _
  rw [V_main_arg4]
  refine congrArg (m _) (funext fun a => Fin.ext ?_)
  match a with
  | ⟨0, _⟩ => show win0_4.index t 0 * 256 + 1 * (y 0).val = (y 0).val; rw [index_b2 t]; omega
theorem W3_block (c : Dev nD) (t : Fin cfg0.N) : (iblk m c 5 t : Vec Ideal S256x256 .f32) = m ((c : Thread nD τ).loc main_arg5) := by
  funext y
  show V m c main_arg5 (((cfg0.win 5).blk t).view.emb y) = _
  rw [V_main_arg5]
  refine congrArg (m _) (funext fun a => Fin.ext ?_)
  match a with
  | ⟨0, _⟩ => show win0_5.index t 0 * 256 + 1 * (y 0).val = (y 0).val; rw [(index_W3 t).1]; omega
  | ⟨1, _⟩ => show win0_5.index t 1 * 256 + 1 * (y 1).val = (y 1).val; rw [(index_W3 t).2]; omega
theorem b3_block (c : Dev nD) (t : Fin cfg0.N) : (iblk m c 6 t : Vec Ideal S256 .f32) = m ((c : Thread nD τ).loc main_arg6) := by
  funext y
  show V m c main_arg6 (((cfg0.win 6).blk t).view.emb y) = _
  rw [V_main_arg6]
  refine congrArg (m _) (funext fun a => Fin.ext ?_)
  match a with
  | ⟨0, _⟩ => show win0_6.index t 0 * 256 + 1 * (y 0).val = (y 0).val; rw [index_b3 t]; omega

/-! ## The result array -/

/-- The specification's result of the kernel's arguments, as contents of the result array. -/
abbrev answer (c : Dev nD) : Buf (Elt Ideal) ((c : Thread nD τ).loc main_v6) :=
  result (ids m c) (slabs m c) (m ((c : Thread nD τ).loc main_arg2)) (m ((c : Thread nD τ).loc main_arg3))
    (m ((c : Thread nD τ).loc main_arg4)) (m ((c : Thread nD τ).loc main_arg5)) (m ((c : Thread nD τ).loc main_arg6))

/-- At the last point the output block holds the answer: the dense tail of the finished sum. -/
theorem out_finished (c : Dev nD) (hok : IdsOk m c) (t : Fin cfg0.N) (h0 : ¬t.val % 256 = 0) (h1 : t.val % 256 = 255) :
    (outsAt0 m c t.val t.isLt).1 = answer m c := by
  have hfin := scratch_finished m c hok t h1
  rw [outsAt0_C m c t h0 h1] at hfin ⊢
  dsimp only at hfin ⊢
  rw [scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t)] at hfin
  refine (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t)
    ((outsAt0 m c (t.val - 1) (Nat.lt_of_le_of_lt (Nat.sub_le _ _) t.isLt)).2)).trans ?_
  refine (congrArg (fun s => k0_pay3 (F := Ideal) s (iblk m c 2 t) (iblk m c 3 t) (iblk m c 4 t) (iblk m c 5 t) (iblk m c 6 t)) hfin).trans ?_
  refine (tail_eq _ _ _ _ _ _).trans ?_
  show tail _ (iblk m c 2 t : Vec Ideal S256 .f32) (iblk m c 3 t : Vec Ideal S256x256 .f32) (iblk m c 4 t : Vec Ideal S256 .f32)
    (iblk m c 5 t : Vec Ideal S256x256 .f32) (iblk m c 6 t : Vec Ideal S256 .f32) = _
  rw [b1_block, W2_block, b2_block, W3_block, b3_block]
  rfl

/-- The one write-back, at the last point, writes the answer: its block is the whole array, read through zero offsets. -/
theorem flushed_answer (c : Dev nD) (hok : IdsOk m c) (t : Fin cfg0.N) (hf : (cfg0.win 7).flush t = true) :
    (dats m 0 c).flushed 7 t = ((cfg0.win 7).blk t).view.read (Elt Ideal) (answer m c) := by
  have h1 : t.val % 256 = 255 := (flush0_7 t).mp hf
  have h0 : ¬t.val % 256 = 0 := by omega
  rw [flushed7, out_finished m c hok t h0 h1]
  have hz' : (fun a => win0_7.index t a * main_v6.ty.shape.size a) = fun _ => 0 := funext fun a => by
    match a with
    | ⟨0, _⟩ => show win0_7.index t 0 * _ = 0; rw [(index_out t).1, Nat.zero_mul]
    | ⟨1, _⟩ => show win0_7.index t 1 * _ = 0; rw [(index_out t).2, Nat.zero_mul]
  exact (Memref.read_access_unit_zero (Elt Ideal) main_v6 hz' (fun a => by rw [congrFun hz' a]; simp) (answer m c)).symm

/-- The last grid point. -/
abbrev lastPoint : Fin cfg0.N := ⟨255, by rw [show cfg0.N = 256 from N_0]; decide⟩

/-- So the result array ends holding the answer: the last point's block covers it. -/
theorem final_answer (c : Dev nD) (hok : IdsOk m c) : (dats m 0 c).arrAt 7 cfg0.N = answer m c :=
  (dats m 0 c).arrAt_eq_of_cover 7 (answer m c) (flushed_answer m c hok) fun i =>
    ⟨lastPoint, (flush0_7 lastPoint).mpr rfl, by
      show i ∈ ((View.whole main_v6).slice (win0_7.rect lastPoint)).set
      rw [View.set_slice_whole, Rect.mem_set_unit]
      intro a
      have hi0 : (i 0 : Nat) < 64 := (i 0).isLt
      have hi1 : (i 1 : Nat) < 256 := (i 1).isLt
      match a with
      | ⟨0, _⟩ =>
        show win0_7.index lastPoint 0 * win0_7.size 0 ≤ (i 0 : Nat) ∧ (i 0 : Nat) < win0_7.index lastPoint 0 * win0_7.size 0 + win0_7.xsize (grid0.coords lastPoint) 0
        rw [show win0_7.index lastPoint 0 * win0_7.size 0 = 0 from by decide +kernel, show win0_7.xsize (grid0.coords lastPoint) 0 = 64 from by decide +kernel]; omega
      | ⟨1, _⟩ =>
        show win0_7.index lastPoint 1 * win0_7.size 1 ≤ (i 1 : Nat) ∧ (i 1 : Nat) < win0_7.index lastPoint 1 * win0_7.size 1 + win0_7.xsize (grid0.coords lastPoint) 1
        rw [show win0_7.index lastPoint 1 * win0_7.size 1 = 0 from by decide +kernel, show win0_7.xsize (grid0.coords lastPoint) 1 = 256 from by decide +kernel]; omega⟩

/-- THE KERNEL'S RUN, READ: with every id below 4096, every weakly fair execution ends with the result array at
    the answer and the arguments unchanged. -/
theorem run (hok : ∀ c : Dev nD, IdsOk m c) : θ_run defs (onTc (τ := τ) (main (F := Ideal))) ⟨m, fun _ => 0, ρ⟩ fun r => ∀ c : Dev nD,
      r.2.mem ((c : Thread nD τ).loc main_v6) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_answer m c (hok c)), (h c).2⟩) (run_blocks m ρ)

end Cert.KernelIdeal.KValue

end
-- ==== Proof.Ref.lean ====
/-
  The reference, read one operation at a time on the extended reals: its result is the specification's function of
  the remapped ids and of the table seen as 256 slabs of 4096 rows.

  The reference indexes the slabs by (position, id) pairs through one gather.  Its indices are taken signed and
  clamped into range: the position 0 … 255 selects its own slab, and the id selects the row the specification calls
  `row`.  jnp's wrap of negative indices never fires, a remapped id being 4095 or the given non-negative id.
-/
import proofs.«414588_j76390288326988_2_alg».proof.Proof.Gen.ReferenceIdeal.Read
import proofs.«414588_j76390288326988_2_alg».proof.Proof.Spec
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.RowDims Idealize.ShloMosaic.StableHlo.Predicate
open Cert.GateMlp

/-! ## Words -/

/-- The signed comparison's bit is set exactly when the signed readings compare. -/
theorem slt_one_iff (a b : BitVec 32) : IntOp.cmpi .slt a b = 1#1 ↔ a.toInt < b.toInt := by
  simp only [IntOp.cmpi, ofBool_eq_one_iff, BitVec.slt, decide_eq_true_eq]

theorem select_of_one {α : Type} {c : BitVec 1} (h : c = 1#1) (a b : α) : Scalar.select c a b = a := by subst h; exact select_one a b
theorem select_of_ne_one {α : Type} {c : BitVec 1} (h : ¬c = 1#1) (a b : α) : Scalar.select c a b = b := by
  rw [eq_zero_of_ne_one h]; exact select_zero a b

/-! ## The ids -/

/-- The remapped id: 4095 where the given id is negative, the id itself elsewhere. -/
theorem remap_apply (g : (⟨S64x256, .i32⟩ : BufTy).Contents (Elt Ideal)) (i : S64x256.Idx) :
    val_main_v2 (F := Ideal) g i = if (g i).toInt < 0 then 4095#32 else g i := by
  rw [val_main_v2_apply, val_main_v1_apply, val_main_v0_apply, val_main_c_apply, val_main_call0_v1_apply,
    val_main_call0_v0_apply, val_main_c_0_apply]
  by_cases h : (g i).toInt < 0
  · rw [if_pos h, select_of_one ((slt_one_iff _ _).mpr h)]
  · rw [if_neg h, select_of_ne_one (fun hc => h ((slt_one_iff _ _).mp hc))]

/-- A remapped id is never negative. -/
theorem remap_nonneg (g : (⟨S64x256, .i32⟩ : BufTy).Contents (Elt Ideal)) (i : S64x256.Idx) :
    0 ≤ (val_main_v2 (F := Ideal) g i).toInt := by
  rw [remap_apply]
  split
  · decide
  · omega

/-- So the wrap of negative indices (add 4096 where negative) leaves the remapped ids as they are. -/
theorem wrap_apply (g : (⟨S64x256, .i32⟩ : BufTy).Contents (Elt Ideal)) (i : S64x256.Idx) :
    val_main_v15 (F := Ideal) g i = val_main_v2 (F := Ideal) g i := by
  rw [val_main_v15_apply, val_main_v12_apply, val_main_v11_apply, val_main_c_3_apply]
  refine select_of_ne_one (fun hc => ?_) _ _
  have h := (slt_one_iff _ _).mp hc
  have h0 : (0#32 : BitVec 32).toInt = 0 := by decide
  have hn := remap_nonneg g i
  rw [h0] at h
  omega

/-- The position index: position t's word is t (the wrap of negative indices does nothing to 0 … 255). -/
theorem position_apply (t : Fin 256) : val_main_v10 (F := Ideal) (ix2 (0 : Fin 1) t) = BitVec.ofNat 32 t.val := by
  rw [val_main_v10_apply, val_main_v7_apply, val_main_v5_apply, val_main_v4_apply, val_main_v6_apply, val_main_c_1_apply]
  show Scalar.select (IntOp.cmpi .slt (BitVec.ofNat 32 t.val) (BitVec.ofNat 32 0)) _ (BitVec.ofNat 32 t.val) = _
  have ht := t.isLt
  refine select_of_ne_one (fun hc => ?_) _ _
  have := (slt_one_iff _ _).mp hc
  rw [toInt_ofNat_small t.val (by omega), toInt_ofNat_small 0 (by omega)] at this
  omega

/-- Clamped into the 256 slabs, position t's word selects slab t. -/
theorem clamp_position (t : Fin 256) : clampRow 256 (by decide) (BitVec.ofNat 32 t.val) = t := by
  apply Fin.ext
  have ht := t.isLt
  show min (BitVec.ofNat 32 t.val).toInt.toNat (256 - 1) = t.val
  rw [toInt_ofNat_small t.val (by omega)]
  simp only [Int.toNat_natCast]
  omega

/-! ## The gather, in coordinates -/

/-- The printed gather's dimension numbers. -/
abbrev gd := gather_S256x4096x256_S64x256x2_S64x256x256_2_01_n_n_01_2_11256

/-- Result entry (b, t, h) reads the start-index component for the slab axis at (b, t, 0) of the start indices, -/
theorem gather_siIdx_slab (b : Fin 64) (t : Fin 256) (h : Fin 256)
    (hc : List.idxOf (0 : Fin S256x4096x256.rank) gd.startIndexMap < gd.startIndexMap.length) :
    gd.siIdx (ix3 b t h) ⟨List.idxOf (0 : Fin S256x4096x256.rank) gd.startIndexMap, hc⟩ = ix3 b t (0 : Fin 2) := by
  funext a; refine Fin.ext ?_
  match a with
  | ⟨0, _⟩ => rfl
  | ⟨1, _⟩ => rfl
  | ⟨2, _⟩ => rfl

/-- and the component for the row axis at (b, t, 1). -/
theorem gather_siIdx_row (b : Fin 64) (t : Fin 256) (h : Fin 256)
    (hc : List.idxOf (1 : Fin S256x4096x256.rank) gd.startIndexMap < gd.startIndexMap.length) :
    gd.siIdx (ix3 b t h) ⟨List.idxOf (1 : Fin S256x4096x256.rank) gd.startIndexMap, hc⟩ = ix3 b t (1 : Fin 2) := by
  funext a; refine Fin.ext ?_
  match a with
  | ⟨0, _⟩ => rfl
  | ⟨1, _⟩ => rfl
  | ⟨2, _⟩ => rfl

/-- The gather read at (b, t, h): the slab the first start-index component selects (clamped into the 256 slabs),
    the row the second selects (clamped into the 4096 rows), column h. -/
theorem gather_apply {α : Type} (x : S256x4096x256.Idx → α) (idx : IVec S64x256x2 32) (b : Fin 64) (t : Fin 256) (h : Fin 256) :
    Host.gather gd x idx (ix3 b t h)
      = x (ix3 (clampRow 256 (by decide) (idx (ix3 b t (0 : Fin 2)))) (clampRow 4096 (by decide) (idx (ix3 b t (1 : Fin 2)))) h) := by
  unfold Host.gather
  congr 1
  funext a
  refine Fin.ext ?_
  match a with
  | ⟨0, _⟩ =>
    show gd.start (ix3 b t h) idx 0 + gd.batchCoord (ix3 b t h) 0 + gd.offCoord (ix3 b t h) 0 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (0 : Fin 3) ∈ gd.startIndexMap by decide)]
    rw [gather_siIdx_slab b t h]
    rfl
  | ⟨1, _⟩ =>
    show gd.start (ix3 b t h) idx 1 + gd.batchCoord (ix3 b t h) 1 + gd.offCoord (ix3 b t h) 1 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (1 : Fin 3) ∈ gd.startIndexMap by decide)]
    rw [gather_siIdx_row b t h]
    rfl
  | ⟨2, _⟩ =>
    show gd.start (ix3 b t h) idx 2 + gd.batchCoord (ix3 b t h) 2 + gd.offCoord (ix3 b t h) 2 = _
    rw [GatherDims.batchCoord_eq_zero _ _ _ List.not_mem_nil]
    unfold GatherDims.start
    rw [dif_neg (show ¬(2 : Fin 3) ∈ gd.startIndexMap by decide)]
    simp only [Nat.add_zero, Nat.zero_add]
    rfl

/-! ## The start indices: (position, id) pairs -/

/-- Component 0 of the start index at (b, t) is position t's word. -/
theorem start_slab (g : (⟨S64x256, .i32⟩ : BufTy).Contents (Elt Ideal)) (b : Fin 64) (t : Fin 256) :
    val_main_v19 (F := Ideal) g (ix3 b t (0 : Fin 2)) = BitVec.ofNat 32 t.val := by
  unfold val_main_v19
  rw [concatenate_pair_apply_left (2 : Fin S64x256x2.rank) _ _ concatenates_S64x256x1_S64x256x1_S64x256x2_d2 (ix3 b t (0 : Fin 2)) rfl
    (ix3 b t (0 : Fin 1)) (fun a => by match a with | ⟨0, _⟩ => rfl | ⟨1, _⟩ => rfl | ⟨2, _⟩ => rfl)]
  rw [val_main_v17_apply, val_main_v16_apply]
  exact (congrArg (val_main_v10 (F := Ideal)) (funext fun a => Fin.ext (by match a with | ⟨0, _⟩ => rfl | ⟨1, _⟩ => rfl))).trans
    (position_apply t)

/-- Component 1 of the start index at (b, t) is the remapped id of (b, t). -/
theorem start_row (g : (⟨S64x256, .i32⟩ : BufTy).Contents (Elt Ideal)) (b : Fin 64) (t : Fin 256) :
    val_main_v19 (F := Ideal) g (ix3 b t (1 : Fin 2)) = val_main_v2 (F := Ideal) g (ix2 b t) := by
  unfold val_main_v19
  rw [concatenate_pair_apply_right (2 : Fin S64x256x2.rank) _ _ concatenates_S64x256x1_S64x256x1_S64x256x2_d2 (ix3 b t (1 : Fin 2)) rfl rfl
    (ix3 b t (0 : Fin 1)) (fun a ha => by
      match a with
      | ⟨0, _⟩ => rfl
      | ⟨1, _⟩ => rfl
      | ⟨2, _⟩ => exact absurd rfl ha) rfl]
  rw [val_main_v18_apply, wrap_apply]
  exact congrArg (val_main_v2 (F := Ideal) g) (funext fun a => Fin.ext (by match a with | ⟨0, _⟩ => rfl | ⟨1, _⟩ => rfl))

/-! ## The summed rows -/

/-- The gathered rows summed over the positions are the specification's summed rows of the remapped ids over the
    table seen as 256 slabs. -/
theorem summed_rows (g : (⟨S64x256, .i32⟩ : BufTy).Contents (Elt Ideal)) (W1 : (⟨S1048576x256, .f32⟩ : BufTy).Contents (Elt Ideal)) :
    val_main_v21 (F := Ideal) g W1 = emb (val_main_v2 (F := Ideal) g) (val_main_v3 (F := Ideal) W1) := by
  funext i
  obtain ⟨b, h, rfl⟩ : ∃ (b : Fin 64) (h : Fin 256), i = ix2 b h := ⟨i 0, i 1, eq_ix2 i⟩
  rw [val_main_v21_apply, val_main_cst_apply]
  show Ideal.ofBits .f32 0x00000000#32 + _ = ∑ t : Fin 256, val_main_v3 (F := Ideal) W1 (ix3 t (row (val_main_v2 (F := Ideal) g (ix2 b t))) h)
  rw [Ideal.ofBits_zero_f32, zero_add]
  refine Finset.sum_congr rfl fun t _ => ?_
  have ei : idx_main_v21 (ix2 b h) t = ix3 b t h :=
    funext fun a => Fin.ext (by match a with | ⟨0, _⟩ => rfl | ⟨1, _⟩ => rfl | ⟨2, _⟩ => rfl)
  rw [ei]
  unfold val_main_v20
  rw [gather_apply, start_slab, start_row, clamp_position]
  rfl

/-! ## The dense tail -/

theorem bias_first (b1 : (⟨S256, .f32⟩ : BufTy).Contents (Elt Ideal)) (i : S64x256.Idx) : val_main_v23 (F := Ideal) b1 i = b1 (ix1 (i 1)) := by
  rw [val_main_v23_apply, val_main_v22_apply]
  exact congrArg b1 (funext fun a => Fin.ext (by match a with | ⟨0, _⟩ => rfl))
theorem bias_second (b2 : (⟨S256, .f32⟩ : BufTy).Contents (Elt Ideal)) (i : S64x256.Idx) : val_main_v28 (F := Ideal) b2 i = b2 (ix1 (i 1)) := by
  rw [val_main_v28_apply, val_main_v27_apply]
  exact congrArg b2 (funext fun a => Fin.ext (by match a with | ⟨0, _⟩ => rfl))
theorem bias_third (b3 : (⟨S256, .f32⟩ : BufTy).Contents (Elt Ideal)) (i : S64x256.Idx) : val_main_v33 (F := Ideal) b3 i = b3 (ix1 (i 1)) := by
  rw [val_main_v33_apply, val_main_v32_apply]
  exact congrArg b3 (funext fun a => Fin.ext (by match a with | ⟨0, _⟩ => rfl))

theorem zero_first (i : S64x256.Idx) : val_main_call1_v0 (F := Ideal) i = 0 := by
  rw [val_main_call1_v0_apply, val_main_call1_cst_apply]; exact Ideal.ofBits_zero_f32
theorem zero_second (i : S64x256.Idx) : val_main_call2_v0 (F := Ideal) i = 0 := by
  rw [val_main_call2_v0_apply, val_main_call2_cst_apply]; exact Ideal.ofBits_zero_f32

variable (g : (⟨S64x256, .i32⟩ : BufTy).Contents (Elt Ideal)) (W1 : (⟨S1048576x256, .f32⟩ : BufTy).Contents (Elt Ideal))
  (b1 : (⟨S256, .f32⟩ : BufTy).Contents (Elt Ideal)) (W2 : (⟨S256x256, .f32⟩ : BufTy).Contents (Elt Ideal))
  (b2 : (⟨S256, .f32⟩ : BufTy).Contents (Elt Ideal)) (W3 : (⟨S256x256, .f32⟩ : BufTy).Contents (Elt Ideal))
  (b3 : (⟨S256, .f32⟩ : BufTy).Contents (Elt Ideal))

/-- The first activation: max(summed rows + bias, 0). -/
theorem first_layer : val_main_v25 (F := Ideal) g W1 b1 = relu (fun i => val_main_v21 (F := Ideal) g W1 i + b1 (ix1 (i 1))) := by
  funext i
  rw [val_main_v25_apply, val_main_v24_apply, bias_first, zero_first]
  rfl

/-- The second activation: max(dense of the first, 0). -/
theorem second_layer : val_main_v30 (F := Ideal) g W1 b1 W2 b2 = relu (dense (val_main_v25 (F := Ideal) g W1 b1) W2 b2) := by
  funext i
  rw [val_main_v30_apply, val_main_v29_apply, val_main_v26_apply, bias_second, zero_second]
  have el : ∀ k, lidx_main_v26 i k = ix2 (i 0) k := fun k => funext fun a => Fin.ext (by match a with | ⟨0, _⟩ => rfl | ⟨1, _⟩ => rfl)
  have er : ∀ k, ridx_main_v26 i k = ix2 k (i 1) := fun k => funext fun a => Fin.ext (by match a with | ⟨0, _⟩ => rfl | ⟨1, _⟩ => rfl)
  simp only [el, er]
  rfl

/-- The result: dense of the second activation. -/
theorem last_layer : val_main_v34 (F := Ideal) g W1 b1 W2 b2 W3 b3 = dense (val_main_v30 (F := Ideal) g W1 b1 W2 b2) W3 b3 := by
  funext i
  rw [val_main_v34_apply, val_main_v31_apply, bias_third]
  have el : ∀ k, lidx_main_v31 i k = ix2 (i 0) k := fun k => funext fun a => Fin.ext (by match a with | ⟨0, _⟩ => rfl | ⟨1, _⟩ => rfl)
  have er : ∀ k, ridx_main_v31 i k = ix2 k (i 1) := fun k => funext fun a => Fin.ext (by match a with | ⟨0, _⟩ => rfl | ⟨1, _⟩ => rfl)
  simp only [el, er]
  rfl

/-- THE REFERENCE'S RESULT is the specification's tail of the summed rows of the remapped ids. -/
theorem result_eq : val_main_v34 (F := Ideal) g W1 b1 W2 b2 W3 b3
    = tail (emb (val_main_v2 (F := Ideal) g) (val_main_v3 (F := Ideal) W1)) b1 W2 b2 W3 b3 := by
  rw [last_layer, second_layer, first_layer, summed_rows]
  rfl

/-- … which is the specification's result of the given ids and of the table reshaped to its 256 slabs. -/
theorem result_is : val_main_v34 (F := Ideal) g W1 b1 W2 b2 W3 b3
    = result g (shapeCast S256x4096x256 W1 shapeCasts_S1048576x256_S256x4096x256) b1 W2 b2 W3 b3 := by
  rw [result_eq, show val_main_v2 (F := Ideal) g = remap g from funext (remap_apply g)]
  rfl

end Cert.ReferenceIdeal.RefValue

end
-- ==== Proof.PreIds.lean ====
/-
  The precondition, read: its last conjunct says that every id is below 4096 (read signed).
-/
import proofs.«414588_j76390288326988_2_alg».proof.Pre_finite_inputs
import proofs.«414588_j76390288326988_2_alg».proof.Proof.Gen.Pre_finite_inputs
import Idealize.ShloMosaic.Lib.ReduceAll
import Idealize.ShloMosaic.Lib.ValueIdx
import Idealize.ShloMosaic.Lib.Affine
import Idealize.ShloMosaic.Lib.StableHlo.Predicate

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- Where the precondition is all ones, every id compares below 4096 as a signed number. -/
theorem ids_lt {F : FTy → Type} [FloatOps F] (g : IVec S64x256 32) (W1 : FVec F S1048576x256 .f32) (b1 : FVec F S256 .f32)
    (W2 : FVec F S256x256 .f32) (b2 : FVec F S256 .f32) (W3 : FVec F S256x256 .f32) (b3 : FVec F S256 .f32)
    (h : fn (F := F) g W1 b1 W2 b2 W3 b3 = fun _ => 1#1) (i : S64x256.Idx) : (g i).toInt < 4096 := by
  have h0 := congrFun h ix0
  unfold fn at h0
  dsimp only at h0
  unfold fn_part1 at h0
  dsimp only at h0
  -- the last conjunct of the conjunction
  have h1 : Host.reduce IntOp.andi (cmpi .slt g (broadcastInDim S64x256 ![] bcast_S_S64x256 (constantI S_ 32 4096#32)))
      (constantI S_ 1 1#1) reducesTo_S64x256_S_d0_1 h_S_ ix0 = 1#1 := (IntOp.andi_eq_one.mp h0).2
  have h2 := Host.reduce_andi_all _ _ reducesTo_S64x256_S_d0_1 h_S_ ix0 h1 i
  -- the comparison at i
  have h3 : IntOp.cmpi .slt (g i) (broadcastInDim S64x256 ![] bcast_S_S64x256 (constantI S_ 32 4096#32) i) = 1#1 := h2
  rw [StableHlo.Predicate.bcast_scalar bcast_S_S64x256 (by decide)] at h3
  have h4 : IntOp.cmpi .slt (g i) 4096#32 = 1#1 := h3
  have h5 : (g i).toInt < (4096#32 : BitVec 32).toInt := by
    simpa only [IntOp.cmpi, StableHlo.Predicate.ofBool_eq_one_iff, BitVec.slt, decide_eq_true_eq] using h4
  have h6 : (4096#32 : BitVec 32).toInt = 4096 := by decide
  omega

end Cert.Pre_finite_inputs.Decode

end
-- ==== Proof.lean ====
/-
  The proof of `Cert.Claim`: the kernel and its reference compute one function on the extended reals.

  The reference maps padding ids (negative) to 4095, reads the table [1048576, 256] as 256 slabs of 4096 rows, and
  for batch row b sums over the positions t the row x[b, t] of slab t; a bias and max(·, 0), a dense layer with
  max(·, 0), and a last dense layer follow.  The kernel walks the 256 positions as grid points: at point t it
  multiplies the one-hot rows of the ids of position t into slab t and adds the product to a running sum kept in a
  scratch buffer (zeroed at the first point); at the last point it applies the same bias, maxima and dense layers
  and stores the result once.

  The two agree entry by entry.  A one-hot row times a slab is the slab's row at the id (0 · a = 0 and 1 · a = a
  hold for every extended real, so no finiteness is used), provided the id is one of the 4096 rows; the reference's
  gather clamps an id of 4096 or more to row 4095 where the one-hot row is all zeros, which is why the statement
  carries the ids' range.  The running sum over the grid points is the reference's sum over the positions, addition
  of extended reals being commutative and associative; a product into a zero accumulator is the host's contraction;
  and narrowing to bf16 is the identity on the extended reals.  Nothing was rewritten by the idealization, so its
  conjunct is trivial, and the frames are the generated ones.
-/
import proofs.«414588_j76390288326988_2_alg».proof.Defs
import proofs.«414588_j76390288326988_2_alg».proof.Proof.Gen.Kernel
import proofs.«414588_j76390288326988_2_alg».proof.Proof.Gen.Kernel.Skeleton
import proofs.«414588_j76390288326988_2_alg».proof.Proof.Gen.Kernel.Launch
import proofs.«414588_j76390288326988_2_alg».proof.Proof.Gen.Kernel.Points
import proofs.«414588_j76390288326988_2_alg».proof.Proof.Gen.Kernel.Frame
import proofs.«414588_j76390288326988_2_alg».proof.Proof.Gen.KernelIdeal
import proofs.«414588_j76390288326988_2_alg».proof.Proof.Gen.KernelIdeal.Skeleton
import proofs.«414588_j76390288326988_2_alg».proof.Proof.Gen.KernelIdeal.Launch
import proofs.«414588_j76390288326988_2_alg».proof.Proof.Gen.KernelIdeal.Points
import proofs.«414588_j76390288326988_2_alg».proof.Proof.Gen.KernelIdeal.Frame
import proofs.«414588_j76390288326988_2_alg».proof.Proof.Gen.ReferenceIdeal
import proofs.«414588_j76390288326988_2_alg».proof.Proof.Gen.Pre_finite_inputs
import proofs.«414588_j76390288326988_2_alg».proof.Proof.Gen.KernelIdeal.Value
import proofs.«414588_j76390288326988_2_alg».proof.Proof.Gen.ReferenceIdeal.Run
import proofs.«414588_j76390288326988_2_alg».proof.Proof.Gen.ReferenceIdeal.Read
import proofs.«414588_j76390288326988_2_alg».proof.Proof.KValue
import proofs.«414588_j76390288326988_2_alg».proof.Proof.Ref
import proofs.«414588_j76390288326988_2_alg».proof.Proof.PreIds
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, both programs end with the specification's
    result of those arguments: the kernel by its value read off the grid's fold, the reference by its operations
    read one at a time; the ids' range comes from the precondition's last conjunct. -/
theorem algebraic : Cert.algebraic_KernelIdeal_ReferenceIdeal := by
  intro m ρ m' ρ' hpre hagree
  have hok : ∀ c, Cert.KernelIdeal.KValue.IdsOk m c := fun c i =>
    Cert.Pre_finite_inputs.Decode.ids_lt (F := Ideal) _ _ _ _ _ _ _ (hpre c) i
  refine ⟨fun c => Cert.KernelIdeal.KValue.answer m c, Cert.KernelIdeal.KValue.run m ρ hok, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.result_is,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
